-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S43x1024 : Shape := ⟨2, ![43, 1024]⟩
abbrev S32768 : Shape := ⟨1, ![32768]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S43x1024 : S_.BroadcastsInDim S43x1024 (![] : Fin 0 → Fin S43x1024.rank)
  reducesTo_S43x1024_S_d0_1 : S43x1024.ReducesTo [0, 1] S_

variable [Facts]

def fn {F : FTy → Type} [FloatOps F] (main_arg0 : FVec F S32768x1024 .f32) (main_arg1 : FVec F S43x1024 .f32) (main_arg2 : IVec S32768 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S43x1024 .f32 := Host.absf main_arg1
  let main_cst_0 : FVec F S_ .f32 := constant S_ .f32 0x7F800000#32
  let main_v5 : FVec F S43x1024 .f32 := broadcastInDim S43x1024 ![] bcast_S_S43x1024 main_cst_0
  let main_v6 : IVec S43x1024 1 := cmpf .olt main_v4 main_v5
  let main_c_1 : IVec S_ 1 := constantI S_ 1 1#1
  let main_v7 : IVec S_ 1 := (fun x v => Host.reduce IntOp.andi x v reducesTo_S43x1024_S_d0_1 h_S_) main_v6 main_c_1
  let main_v8 : IVec S_ 1 := andi main_v3 main_v7
  main_v8
-- ==== Kernel.lean ====
abbrev S32768x1024 : Shape := ⟨2, ![32768, 1024]⟩
abbrev S43x1024 : Shape := ⟨2, ![43, 1024]⟩
abbrev S32768 : Shape := ⟨1, ![32768]⟩
abbrev S_ : Shape := ⟨0, ![]⟩
abbrev S128x1024 : Shape := ⟨2, ![128, 1024]⟩
abbrev S32768x1 : Shape := ⟨2, ![32768, 1]⟩
abbrev S1x1 : Shape := ⟨2, ![1, 1]⟩
abbrev S1024x1024 : Shape := ⟨2, ![1024, 1024]⟩
abbrev S1024x1 : Shape := ⟨2, ![1024, 1]⟩
abbrev S1024 : Shape := ⟨1, ![1024]⟩
abbrev S128 : Shape := ⟨1, ![128]⟩
abbrev S128x1 : Shape := ⟨2, ![128, 1]⟩
abbrev S1x128 : Shape := ⟨2, ![1, 128]⟩
abbrev S1024x128 : Shape := ⟨2, ![1024, 128]⟩
abbrev S1 : Shape := ⟨1, ![1]⟩

abbrev nBuf : Space → Nat
  | .hbm => 9
  | .vmem => 7
  | .smem => 0
  | _ => 0

abbrev bufTy : (tb : Table) → Fin (tcTables nBuf tb) → BufTy
  | .hbm, ⟨0, _⟩ => ⟨S32768x1024, .f32⟩
  | .hbm, ⟨1, _⟩ => ⟨S43x1024, .f32⟩
  | .hbm, ⟨2, _⟩ => ⟨S32768, .i32⟩
  | .hbm, ⟨3, _⟩ => ⟨S_, .i32⟩
  | .hbm, ⟨4, _⟩ => ⟨S_, .f32⟩
  | .hbm, ⟨5, _⟩ => ⟨S128x1024, .f32⟩
  | .hbm, ⟨6, _⟩ => ⟨S32768x1, .i32⟩
  | .hbm, ⟨7, _⟩ => ⟨S1x1, .f32⟩
  | .hbm, ⟨8, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S1024x1, .i32⟩
  | .local _ .vmem, ⟨4, _⟩ => ⟨S1024x1, .i32⟩
  | .local _ .vmem, ⟨5, _⟩ => ⟨S1x1, .f32⟩
  | .local _ .vmem, ⟨6, _⟩ => ⟨S1x1, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v47 : BitVec 1 := Scalar.cmpi .eq arg0 c31_i32
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  pads_S43x1024_S128x1024_0850_000 : S43x1024.Pads (![0, 0] : Fin 2 → Nat) ![85, 0] ![0, 0] S128x1024
  h_S_ : 0 < S_.numel
  shapeCasts_S32768_S32768x1 : S32768.ShapeCasts S32768x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  reduces_S1024x1024_S1024 : S1024x1024.Reduces [1] S1024
  shapeCasts_S1024_S1024x1 : S1024.ShapeCasts S1024x1
  reduces_S128x1024_S128 : S128x1024.Reduces [1] S128
  shapeCasts_S128_S128x1 : S128.ShapeCasts S128x1
  transposes_S128x1_p1_0_S1x128 : S128x1.Transposes [1, 0] S1x128
  bitsLt_bf16_f32 : FTy.bits .bf16 < FTy.bits .f32
  transposes_S128x1024_p1_0_S1024x128 : S128x1024.Transposes [1, 0] S1024x128
  broadcasts_S1024x1_S1024x128 : S1024x1.Broadcasts S1024x128
  broadcasts_S1x128_S1024x128 : S1x128.Broadcasts S1024x128
  iota_S1024x128_d1_w32 : S1024x128.Iotas .tc 32 [1]
  reduces_S1024x128_S1024 : S1024x128.Reduces [1] S1024
  reduces_S1024x1_S1 : S1024x1.Reduces [0] S1
  shapeCasts_S1_S1x1 : S1.ShapeCasts S1x1
  shapeCasts_S1x1_S_ : S1x1.ShapeCasts S_
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .i32 = 32 ∨ (Rect.block (s := S32768x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S43x1024 : Shape := ⟨2, ![43, 1024]⟩
abbrev S32768 : Shape := ⟨1, ![32768]⟩
abbrev S_ : Shape := ⟨0, ![]⟩
abbrev S32768x1 : Shape := ⟨2, ![32768, 1]⟩
abbrev S43 : Shape := ⟨1, ![43]⟩
abbrev S1x43 : Shape := ⟨2, ![1, 43]⟩
abbrev S32768x43 : Shape := ⟨2, ![32768, 43]⟩
abbrev S1024x43 : Shape := ⟨2, ![1024, 43]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S43x1024, .f32⟩
  | .hbm, ⟨2, _⟩ => ⟨S32768, .i32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S43x1024, .f32⟩
  | .hbm, ⟨8, _⟩ => ⟨S_, .f32⟩
  | .hbm, ⟨9, _⟩ => ⟨S43, .f32⟩
  | .hbm, ⟨10, _⟩ => ⟨S1x43, .f32⟩
  | .hbm, ⟨11, _⟩ => ⟨S32768x43, .f32⟩
  | .hbm, ⟨12, _⟩ => ⟨S32768x43, .f32⟩
  | .hbm, ⟨13, _⟩ => ⟨S32768x43, .f32⟩
  | .hbm, ⟨14, _⟩ => ⟨S1024x43, .f32⟩
  | .hbm, ⟨15, _⟩ => ⟨S32768x43, .f32⟩
  | .hbm, ⟨16, _⟩ => ⟨S_, .f32⟩
  | .hbm, ⟨17, _⟩ => ⟨S32768x43, .f32⟩
  | .hbm, ⟨18, _⟩ => ⟨S32768x43, .f32⟩
  | .hbm, ⟨19, _⟩ => ⟨S32768x43, .f32⟩
  | .hbm, ⟨20, _⟩ => ⟨S32768x1, .i32⟩
  | .hbm, ⟨21, _⟩ => ⟨S43, .i32⟩
  | .hbm, ⟨22, _⟩ => ⟨S1x43, .i32⟩
  | .hbm, ⟨23, _⟩ => ⟨S32768x43, .i32⟩
  | .hbm, ⟨24, _⟩ => ⟨S32768x43, .i32⟩
  | .hbm, ⟨25, _⟩ => ⟨S32768x43, .i1⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S32768x43, .f32⟩
  | .hbm, ⟨30, _⟩ => ⟨S32768x43, .f32⟩
  | .hbm, ⟨31, _⟩ => ⟨S_, .f32⟩
  | .hbm, ⟨32, _⟩ => ⟨S32768x43, .f32⟩
  | .hbm, ⟨33, _⟩ => ⟨S32768x43, .f32⟩
  | .hbm, ⟨34, _⟩ => ⟨S_, .f32⟩
  | .hbm, ⟨35, _⟩ => ⟨S32768x43, .f32⟩
  | .hbm, ⟨36, _⟩ => ⟨S32768x43, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_cst_4 : Ref sig .tc := ⟨.hbm, 34, rfl⟩
abbrev main_call1_v0 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  reducesTo_S43x1024_S43_d1 : S43x1024.ReducesTo [1] S43
  bcast_S43_S1x43_1 : S43.BroadcastsInDim S1x43 (![1] : Fin 1 → Fin S1x43.rank)
  bcast_S32768x1_S32768x43_0_1 : S32768x1.BroadcastsInDim S32768x43 (![0, 1] : Fin 2 → Fin S32768x43.rank)
  bcast_S1x43_S32768x43_0_1 : S1x43.BroadcastsInDim S32768x43 (![0, 1] : Fin 2 → Fin S32768x43.rank)
  transposes_S43x1024_S1024x43_1_0 : S43x1024.Transposes [1, 0] S1024x43
  bcast_S_S32768x43 : S_.BroadcastsInDim S32768x43 (![] : Fin 0 → Fin S32768x43.rank)
  reducesTo_S32768x43_S_d0_1 : S32768x43.ReducesTo [0, 1] S_
  dot_S32768x1024_S1024x43_S32768x43_1_0_0_1_n_n_wf : DotDims.WF S32768x1024 S1024x43 S32768x43 [1] [0] [0] [1] [] []

variable [Facts₀]

def dot_S32768x1024_S1024x43_S32768x43_1_0_0_1_n_n : DotDims S32768x1024 S1024x43 S32768x43 where
  lhsContracting := [1]
  rhsContracting := [0]
  lhsNonContracting := [0]
  rhsNonContracting := [1]
  lhsBatch := []
  rhsBatch := []
  wf := dot_S32768x1024_S1024x43_S32768x43_1_0_0_1_n_n_wf

class Facts : Prop extends Facts₀ where

variable [Facts]
-- ==== Proof.Spec.lean ====
/-
  The quantity both programs compute, and the one law of sums that joins their two arrangements of it.

  For the rows x_i of `x` (i < 32768), the class centres c_j of `centers` (j < 43) and the labels l_i, put
      d(i, j) = (‖x_i‖² + ‖c_j‖²) − 2·⟨x_i, c_j⟩,
  clip it from below and then from above, and count it unless j is the row's own class (l_i = j). The result is the total
  of the counted entries over all rows and all 43 classes, divided by the number 32768 · 42 of counted entries.

  The reference sums the entries in one sweep over (i, j). The kernel walks the rows in 32 tiles of 1024, widens the 43
  classes to 128 lanes whose last 85 count as nothing, sums the lanes of each row, the rows of each tile, and the tiles one
  after the other. Addition of extended reals is commutative and associative at every value, the infinities included, so
  the two totals agree: no entry has to be finite for that.
-/
import Idealize.ShloMosaic.PureOps.Ideal
import Idealize.ShloMosaic.PureOps.Ideal.Laws
import Idealize.ShloMosaic.Lib.ValueIdx

noncomputable section

open scoped BigOperators

namespace ConProximity

open Idealize.ShloMosaic Idealize.ShloMosaic.ValueIdx

/-! ## One entry -/

/-- The squared distance from its three sums — (‖x‖² + ‖c‖²) − 2·⟨x, c⟩ — clipped from below, then from above. -/
def clipDist (xs cs dot : EReal) : EReal :=
  min (Ideal.ofBits .f32 0x5368D4A5#32)
    (max (Ideal.ofBits .f32 0x2B8CBCCC#32) ((xs + cs) - Ideal.ofBits .f32 0x40000000#32 * dot))

/-- An entry counts as itself unless the bit `own` says it is the row's own class; then it counts as zero. -/
def kept (own : BitVec 1) (v : EReal) : EReal := Scalar.select own (Ideal.ofBits .f32 0x00000000#32) v

theorem kept_one (v : EReal) : kept 1#1 v = 0 := by
  unfold kept
  rw [select_one]
  exact Ideal.ofBits_zero_f32

/-! ## The whole quantity, over the three argument arrays -/

section Whole

variable (X : (⟨2, ![32768, 1024]⟩ : Shape).Idx → EReal) (C : (⟨2, ![43, 1024]⟩ : Shape).Idx → EReal)
  (Lb : (⟨1, ![32768]⟩ : Shape).Idx → BitVec 32)

/-- ‖x_i‖². -/
def sqX (i : Fin 32768) : EReal := ∑ k : Fin 1024, X (ix2 i k) * X (ix2 i k)
/-- ‖c_j‖². -/
def sqC (j : Fin 43) : EReal := ∑ k : Fin 1024, C (ix2 j k) * C (ix2 j k)
/-- ⟨x_i, c_j⟩. -/
def dotXC (i : Fin 32768) (j : Fin 43) : EReal := ∑ k : Fin 1024, X (ix2 i k) * C (ix2 j k)
/-- Is j the own class of row i? -/
def own (i : Fin 32768) (j : Fin 43) : BitVec 1 := IntOp.cmpi .eq (Lb (ix1 i)) (BitVec.ofNat 32 j.val)
/-- The entry (i, j) as it is counted. -/
def term (i : Fin 32768) (j : Fin 43) : EReal := kept (own Lb i j) (clipDist (sqX X i) (sqC C j) (dotXC X C i j))
/-- The total of the counted entries. -/
def total : EReal := ∑ i : Fin 32768, ∑ j : Fin 43, term X C Lb i j
/-- The mean over the 32768 · 42 counted entries. -/
def loss : EReal := Ideal.div (total X C Lb) (Ideal.ofBits .f32 0x49A80000#32)

end Whole

/-! ## Rows in tiles, classes in lanes -/

/-- Row r of tile t is row 1024·t + r. -/
def rowOf (t : Fin 32) (r : Fin 1024) : Fin 32768 :=
  ⟨1024 * t.val + r.val, by have := t.isLt; have := r.isLt; omega⟩

/-- Tile and row within the tile, against the row: quotient and remainder by 1024. -/
def rowEquiv : Fin 32 × Fin 1024 ≃ Fin 32768 where
  toFun p := rowOf p.1 p.2
  invFun i := (⟨i.val / 1024, by have := i.isLt; omega⟩, ⟨i.val % 1024, by omega⟩)
  left_inv := fun ⟨t, r⟩ => by
    have ht := t.isLt
    have hr := r.isLt
    exact Prod.ext (Fin.ext (by show (1024 * t.val + r.val) / 1024 = t.val; omega))
      (Fin.ext (by show (1024 * t.val + r.val) % 1024 = r.val; omega))
  right_inv := fun i => Fin.ext (by show 1024 * (i.val / 1024) + i.val % 1024 = i.val; omega)

/-- Summing tile by tile and row by row within each tile is summing over the rows. -/
theorem sum_rows {M : Type*} [AddCommMonoid M] (g : Fin 32768 → M) :
    ∑ t : Fin 32, ∑ r : Fin 1024, g (rowOf t r) = ∑ i : Fin 32768, g i :=
  ((Fintype.sum_prod_type (fun p : Fin 32 × Fin 1024 => g (rowEquiv p))).symm).trans (Equiv.sum_comp rowEquiv g)

/-- A sum over 128 lanes of which all from the 43rd on are zero is the sum over the first 43. -/
theorem sum_lanes {M : Type*} [AddCommMonoid M] (h : Fin 128 → M) (hz : ∀ j : Fin 128, 43 ≤ j.val → h j = 0) :
    ∑ j : Fin 128, h j = ∑ j : Fin 43, h ⟨j.val, by have := j.isLt; omega⟩ := by
  refine (Fin.sum_univ_add (a := 43) (b := 85) h).trans ?_
  rw [Finset.sum_eq_zero (fun (j : Fin 85) _ => hz (Fin.natAdd 43 j) (Nat.le_add_right 43 j.val)), add_zero]
  rfl

/-- THE LAW. A family over tiles, rows and 128 lanes that is the counted entry on the first 43 lanes and zero on the
    rest sums to the total. -/
theorem total_eq_tiles (X : (⟨2, ![32768, 1024]⟩ : Shape).Idx → EReal) (C : (⟨2, ![43, 1024]⟩ : Shape).Idx → EReal)
    (Lb : (⟨1, ![32768]⟩ : Shape).Idx → BitVec 32) (K : Fin 32 → Fin 1024 → Fin 128 → EReal)
    (hin : ∀ (t : Fin 32) (r : Fin 1024) (j : Fin 43),
      K t r ⟨j.val, by have := j.isLt; omega⟩ = term X C Lb (rowOf t r) j)
    (hout : ∀ (t : Fin 32) (r : Fin 1024) (j : Fin 128), 43 ≤ j.val → K t r j = 0) :
    ∑ t : Fin 32, ∑ r : Fin 1024, ∑ j : Fin 128, K t r j = total X C Lb := by
  unfold total
  rw [← sum_rows (fun i => ∑ j : Fin 43, term X C Lb i j)]
  refine Finset.sum_congr rfl fun t _ => Finset.sum_congr rfl fun r _ => ?_
  rw [sum_lanes (K t r) (hout t r)]
  exact Finset.sum_congr rfl fun j _ => hin t r j

/-! ## The kernel's lane mask -/

/-- The bit under which the kernel counts lane j of a row with label `lab` as nothing: the lane is the label, or the
    lane is not one of the 43 classes. -/
def laneMask (lab : BitVec 32) (j : Fin 128) : BitVec 1 :=
  IntOp.ori (IntOp.cmpi .eq (BitVec.ofNat 32 j.val) lab) (IntOp.xori (IntOp.cmpi .slt (BitVec.ofNat 32 j.val) 43#32) 1#1)

/-- Lane numbers below 128 compare with 43 as numbers. -/
theorem slt_43 : ∀ j : Fin 128, IntOp.cmpi .slt (BitVec.ofNat 32 j.val) 43#32 = if j.val < 43 then 1#1 else 0#1 := by
  decide +kernel

theorem cmpi_eq_comm (a b : BitVec 32) : IntOp.cmpi .eq a b = IntOp.cmpi .eq b a := by
  show BitVec.ofBool (a == b) = BitVec.ofBool (b == a)
  by_cases h : a = b
  · subst h; rfl
  · have h1 : (a == b) = false := beq_false_of_ne h
    have h2 : (b == a) = false := beq_false_of_ne (fun e => h e.symm)
    rw [h1, h2]

/-- On the 43 class lanes the mask is the own-class test. -/
theorem laneMask_lt (lab : BitVec 32) (j : Fin 128) (h : j.val < 43) :
    laneMask lab j = IntOp.cmpi .eq lab (BitVec.ofNat 32 j.val) := by
  unfold laneMask
  rw [slt_43 j, if_pos h, cmpi_eq_comm]
  generalize IntOp.cmpi .eq lab (BitVec.ofNat 32 j.val) = b
  revert b; decide

/-- On the other 85 lanes it is set. -/
theorem laneMask_ge (lab : BitVec 32) (j : Fin 128) (h : 43 ≤ j.val) : laneMask lab j = 1#1 := by
  unfold laneMask
  rw [slt_43 j, if_neg (by omega)]
  generalize IntOp.cmpi .eq (BitVec.ofNat 32 j.val) lab = b
  revert b; decide

end ConProximity

end
-- ==== Proof.RefSide.lean ====
/-
  The reference program read at an index: its result is the total, over every row and every one of the 43 classes, of the
  clipped squared distance with the row's own class left out, divided by the number of kept entries.

  Each of its operations acts entry by entry or is a sum: ‖x_i‖² and ‖c_j‖² are sums over the 1024 features started from
  zero, ⟨x_i, c_j⟩ is the matrix product against the transposed centres, the own-class bit compares the row's label with the
  class number, and the result sums every entry of the 32768 × 43 table, again from zero, and divides.
-/
import proofs.«173890_j14877766713743_1_alg».proof.Proof.Gen.ReferenceIdeal.Run
import proofs.«173890_j14877766713743_1_alg».proof.Proof.Gen.ReferenceIdeal.Read
import proofs.«173890_j14877766713743_1_alg».proof.Proof.Spec

noncomputable section

open scoped BigOperators

namespace Cert.ReferenceIdeal.RefSide

open Cert.ReferenceIdeal Cert.ReferenceIdeal.Read ConProximity
open Idealize.ShloMosaic Idealize.ShloMosaic.ValueIdx

variable (x0 : (⟨S32768x1024, .f32⟩ : BufTy).Contents (Elt Ideal)) (x1 : (⟨S43x1024, .f32⟩ : BufTy).Contents (Elt Ideal))
  (x2 : (⟨S32768, .i32⟩ : BufTy).Contents (Elt Ideal))

/-- The broadcast row norms: entry (i, j) holds ‖x_i‖², the sum from zero over the features. -/
theorem rowNorm_apply (i : Fin 32768) (j : Fin 43) : val_main_v6 (F := Ideal) x0 (ix2 i j) = sqX x0 i := by
  rw [val_main_v6_apply, val_main_v2_apply, val_main_v1_apply, val_main_cst_apply]
  simp only [Ideal.ofBits_def, Ideal.ofBits_zero_f32, zero_add]
  unfold sqX
  refine Finset.sum_congr rfl fun k _ => ?_
  rw [val_main_v0_apply]
  have e : idx_main_v1 (idx_main_v2 (idx_main_v6 (ix2 i j))) k = ix2 i k :=
    funext fun a => Fin.ext (by match a with | ⟨0, _⟩ => rfl | ⟨1, _⟩ => rfl)
  rw [e]
  rfl

/-- The broadcast centre norms: entry (i, j) holds ‖c_j‖². -/
theorem centreNorm_apply (i : Fin 32768) (j : Fin 43) : val_main_v7 (F := Ideal) x1 (ix2 i j) = sqC x1 j := by
  rw [val_main_v7_apply, val_main_v5_apply, val_main_v4_apply, val_main_cst_0_apply]
  simp only [Ideal.ofBits_def, Ideal.ofBits_zero_f32, zero_add]
  unfold sqC
  refine Finset.sum_congr rfl fun k _ => ?_
  rw [val_main_v3_apply]
  have e : idx_main_v4 (idx_main_v5 (idx_main_v7 (ix2 i j))) k = ix2 j k :=
    funext fun a => Fin.ext (by match a with | ⟨0, _⟩ => rfl | ⟨1, _⟩ => rfl)
  rw [e]
  rfl

/-- The matrix product against the transposed centres: entry (i, j) holds ⟨x_i, c_j⟩. -/
theorem product_apply (i : Fin 32768) (j : Fin 43) : val_main_v10 (F := Ideal) x0 x1 (ix2 i j) = dotXC x0 x1 i j := by
  rw [val_main_v10_apply]
  unfold dotXC
  refine Finset.sum_congr rfl fun k _ => ?_
  rw [val_main_v9_apply]
  have el : lidx_main_v10 (ix2 i j) k = ix2 i k :=
    funext fun a => Fin.ext (by match a with | ⟨0, _⟩ => rfl | ⟨1, _⟩ => rfl)
  have er : idx_main_v9 (ridx_main_v10 (ix2 i j) k) = ix2 j k :=
    funext fun a => Fin.ext (by match a with | ⟨0, _⟩ => rfl | ⟨1, _⟩ => rfl)
  rw [el, er]

/-- The comparison of the broadcast labels with the broadcast class numbers: entry (i, j) asks whether l_i = j. -/
theorem ownBit_apply (i : Fin 32768) (j : Fin 43) : val_main_v19 (F := Ideal) x2 (ix2 i j) = own x2 i j := by
  rw [val_main_v19_apply, val_main_v17_apply, val_main_v14_apply, val_main_v18_apply, val_main_v16_apply,
    val_main_v15_apply]
  have e : idx_main_v14 (idx_main_v17 (ix2 i j)) = ix1 i :=
    funext fun a => Fin.ext (by match a with | ⟨0, _⟩ => rfl)
  rw [e]
  rfl

/-- One entry of the table the reference sums: the clipped distance, zero on the row's own class. -/
theorem entry_apply (i : Fin 32768) (j : Fin 43) : val_main_v21 (F := Ideal) x0 x1 x2 (ix2 i j) = term x0 x1 x2 i j := by
  rw [val_main_v21_apply, ownBit_apply, val_main_call1_v0_apply, val_main_cst_4_apply, val_main_v20_apply,
    val_main_call0_v4_apply, val_main_call0_v3_apply, val_main_cst_3_apply, val_main_call0_v2_apply,
    val_main_call0_v1_apply, val_main_call0_v0_apply, val_main_cst_2_apply, val_main_v13_apply, val_main_v8_apply,
    rowNorm_apply, centreNorm_apply, val_main_v12_apply, val_main_v11_apply, val_main_cst_1_apply, product_apply]
  rfl

/-- The reference's result: the total of the table from zero, divided by the number of kept entries. -/
theorem result_eq : val_main_v23 (F := Ideal) x0 x1 x2 = fun _ => loss x0 x1 x2 := by
  funext y
  rw [val_main_v23_apply, val_main_v22_apply, val_main_cst_5_apply, val_main_cst_6_apply]
  simp only [Ideal.ofBits_def, Ideal.ofBits_zero_f32, zero_add, Ideal.hostDivf_def]
  unfold loss total
  rw [sum_idx2]
  refine congrArg (fun s : EReal => Ideal.div s (Ideal.ofBits .f32 0x49A80000#32)) ?_
  refine Finset.sum_congr rfl fun i _ => ?_
  refine Finset.sum_congr rfl fun j _ => ?_
  exact entry_apply x0 x1 x2 i j

end Cert.ReferenceIdeal.RefSide

end
-- ==== Proof.KernelCases.lean ====
/-
  What one run of the kernel's body leaves behind, case by case.

  The body keeps a running total in a one-entry scratch that lives across the 32 grid points. At the first point it sets
  the scratch to zero and then adds the tile's sum; at every later point it adds the tile's sum to what the point before
  left; at the last point it also writes the updated total, divided by the number of counted entries, to the one-entry
  output. Each statement below says this of one case, for any values found in the input blocks and in the scratch: the
  contents left are the body's own arithmetic (its payloads) applied to what was found.
-/
import proofs.«173890_j14877766713743_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

/-- The zero offsets of a whole-block access. -/
theorem hz : (![0, 0] : Fin 2 → Nat) = fun _ => 0 := funext fun a => by fin_cases a <;> rfl

/-- CASE B (a point that is neither the first nor the last): the scratch, found holding `xs0`, is left holding `xs0`
    plus the tile's sum. -/
theorem sout_B (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1024x1 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S1024x1024 .f32) (x1 : Vec F S128x1024 .f32) (x2 : Vec F S1024x1 .i32) (xs0 : Vec F S1x1 .f32) :
    sout0_B_0 c i arg1 harg1 arg2 harg2 arg3 harg3 arg4 harg4 arg5 harg5 hc0 hc1 x0 x1 x2 xs0 = k0_pay1 (k0_pay4 x0 x1 x2) xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg3.read_unread, harg5.read_unread,
    View.ld_unit_zero (S := S1024x1024) hz, View.ld_unit_zero (S := S128x1024) hz, View.ld_unit_zero (S := S1024x1) hz,
    View.ld_unit_zero (S := S1x1) hz]

/-- CASE A (the first point): the scratch is first set to zero and then updated, so it is left holding zero plus the
    tile's sum, whatever it held before. -/
theorem sout_A (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1024x1 .i32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S1024x1024 .f32) (x1 : Vec F S128x1024 .f32) (x2 : Vec F S1024x1 .i32) :
    sout0_A_0 c i arg1 harg1 arg2 harg2 arg3 harg3 arg4 harg4 arg5 harg5 hc0 hc1 x0 x1 x2 = k0_pay1 (k0_pay4 x0 x1 x2) (k0_pay3 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S1024x1024) hz, View.ld_unit_zero (S := S128x1024) hz, View.ld_unit_zero (S := S1024x1) hz,
    View.ld_unit_zero (S := S1x1) hz]

/-- CASE C (the last point), the scratch: updated as in case B. -/
theorem sout_C (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1024x1 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1024x1024 .f32) (x1 : Vec F S128x1024 .f32) (x2 : Vec F S1024x1 .i32) (xs0 : Vec F S1x1 .f32) :
    sout0_C_0 c i arg1 harg1 arg2 harg2 arg3 harg3 arg4 harg4 arg5 harg5 hc0 hc1 x0 x1 x2 xs0 = k0_pay1 (k0_pay4 x0 x1 x2) xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S1024x1024) hz, View.ld_unit_zero (S := S128x1024) hz, View.ld_unit_zero (S := S1024x1) hz,
    View.ld_unit_zero (S := S1x1) hz]

/-- CASE C, the output: the updated scratch divided by the number of counted entries. -/
theorem out_C (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1024x1 .i32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S1024x1024 .f32) (x1 : Vec F S128x1024 .f32) (x2 : Vec F S1024x1 .i32) (xs0 : Vec F S1x1 .f32) :
    out0_C_3 c i arg1 harg1 arg2 harg2 arg3 harg3 arg4 harg4 arg5 harg5 hc0 hc1 x0 x1 x2 xs0 = k0_pay2 (k0_pay1 (k0_pay4 x0 x1 x2) xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg5.read_unread,
    View.ld_unit_zero (S := S1024x1024) hz, View.ld_unit_zero (S := S128x1024) hz, View.ld_unit_zero (S := S1024x1) hz,
    View.ld_unit_zero (S := S1x1) hz]

end Cert.KernelIdeal.Cases

end
-- ==== Proof.LibKeepdims.lean ====
/-
  Columns and their sums, read at an index (general lemmas over abstract extents).

  A sum over one axis of a matrix that keeps the summed axis as a unit axis passes through three layout steps: the sum
  itself (a vector), the vector viewed as a one-column matrix, and that column laid along every column of a wider
  matrix. Each is read here at an index built from its coordinates:
    * a vector viewed as a column holds, at (r, 0), the vector's entry r;
    * a column broadcast across b columns holds, at (r, c), the column's entry r;
    * at the exact values, the sum of a matrix along its second axis holds at r the sum over k of the entries (r, k), and
      along its first axis holds at c the sum over k of the entries (k, c).
-/
import Idealize.ShloMosaic.PureOps.Ideal.Laws
import Idealize.ShloMosaic.Lib.ValueIdx
import Idealize.ShloMosaic.Lib.Pipeline.Value

noncomputable section

open scoped BigOperators

namespace Keepdims

open Idealize.ShloMosaic Idealize.ShloMosaic.ValueIdx

variable {α : Type}

/-- A vector of `a` entries viewed as an `a × 1` matrix: entry (r, 0) is the vector's entry r. -/
theorem shapeCast_a_a1_apply {a : ℕ} (v : (⟨1, ![a]⟩ : Shape).Idx → α)
    (h : (⟨1, ![a]⟩ : Shape).ShapeCasts ⟨2, ![a, 1]⟩) (r : Fin a) (z : Fin 1) :
    shapeCast ⟨2, ![a, 1]⟩ v h (ix2 r z) = v (ix1 r) :=
  shapeCast_apply v h (ix2 r z) (ix1 r) (by
    rw [Shape.rowMajor_val_one, Shape.rowMajor_val_two]
    show r.val = r.val * 1 + z.val
    have := z.isLt
    omega)

/-- An `a × 1` column laid along the `b` columns of an `a × b` matrix (`a` not 1): entry (r, c) is the column's
    entry r. -/
theorem broadcastTo_a1_ab_apply {a b : ℕ} (ha : a ≠ 1) (v : (⟨2, ![a, 1]⟩ : Shape).Idx → α)
    (h : (⟨2, ![a, 1]⟩ : Shape).Broadcasts ⟨2, ![a, b]⟩) (r : Fin a) (c : Fin b) (z : Fin 1) :
    broadcastTo ⟨2, ![a, b]⟩ v h (ix2 r c) = v (ix2 r z) := by
  refine broadcastTo_apply v h (ix2 r c) (ix2 r z) fun ax => ?_
  match ax with
  | ⟨0, _⟩ =>
    show r.val = if a = 1 then 0 else r.val
    rw [if_neg ha]
  | ⟨1, _⟩ =>
    show z.val = if (1 : ℕ) = 1 then 0 else c.val
    rw [if_pos rfl]
    have := z.isLt
    omega

/-- At the exact values the sum of an `a × b` matrix along its second axis holds, at r, the sum of row r. -/
theorem sum_axis1_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- At the exact values the sum of an `a × b` matrix along its first axis holds, at c, the sum of column c. -/
theorem sum_axis0_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src (funext fun ax => Fin.ext ?_)
  match ax with
  | ⟨0, _⟩ => rfl
  | ⟨1, _⟩ => rfl

end Keepdims

end
-- ==== Proof.TileTerms.lean ====
/-
  One tile's arithmetic, stage by stage, read at an index.

  For a tile of 1024 rows the body forms, for row r and lane j of 128:
    the row's squared norm (a sum over the 1024 features, kept as a column and laid along the lanes),
    the squared norm of centre j (the same sum over the padded centres, turned into a row and laid along the rows),
    the product ⟨row r, centre j⟩ (the matrix product against the transposed centres; narrowing to 16 bits is the
    identity at the exact values),
    their combination (‖x‖² + ‖c‖²) − 2·⟨x, c⟩, clipped from below and from above,
    and zero instead wherever the lane is the row's label or is not one of the 43 classes.
  It then sums the 128 lanes of each row. The stages are named here in this order, the body's own term is their
  composition by definition, and each is read at (r, j) as the formula above.
-/
import proofs.«173890_j14877766713743_1_alg».proof.Proof.Gen.KernelIdeal.Skeleton
import proofs.«173890_j14877766713743_1_alg».proof.Proof.Spec
import proofs.«173890_j14877766713743_1_alg».proof.Proof.LibKeepdims
import Idealize.ShloMosaic.Lib.ValueLayout

noncomputable section

open scoped BigOperators

namespace Cert.KernelIdeal.Tile

open Cert.KernelIdeal Cert.KernelIdeal.Gen ConProximity Keepdims
open Idealize.ShloMosaic Idealize.ShloMosaic.ValueIdx

/-! ## The stages, at any float instance -/

section Stages

variable {F : FTy → Type} [FloatOps F]

/-- The rows' squared norms, as a column. -/
def rowSq (v3 : Vec F S1024x1024 .f32) : FVec F S1024x1 .f32 :=
  shapeCast S1024x1 (multiReduction .add [1] S1024 (mulf v3 v3) 0x00000000#32 reduces_S1024x1024_S1024 (.inl rfl) rfl)
    shapeCasts_S1024_S1024x1

/-- The padded centres' squared norms, as a row. -/
def cenSq (v4 : Vec F S128x1024 .f32) : FVec F S1x128 .f32 :=
  transpose S1x128 [1, 0]
    (shapeCast S128x1
      (multiReduction .add [1] S128
        (mulf (shapeCast S128x1024 v4 shapeCasts_S128x1024_S128x1024) (shapeCast S128x1024 v4 shapeCasts_S128x1024_S128x1024))
        0x00000000#32 reduces_S128x1024_S128 (.inl rfl) rfl)
      shapeCasts_S128_S128x1)
    transposes_S128x1_p1_0_S1x128

/-- The products of every row with every padded centre. -/
def prods (v3 : Vec F S1024x1024 .f32) (v4 : Vec F S128x1024 .f32) : FVec F S1024x128 .f32 :=
  matmul dot_S1024x1024_S1024x128_S1024x128_1_0_0_1_n_n none (truncf .bf16 v3 bitsLt_bf16_f32)
    (transpose S1024x128 [1, 0] (truncf .bf16 (shapeCast S128x1024 v4 shapeCasts_S128x1024_S128x1024) bitsLt_bf16_f32)
      transposes_S128x1024_p1_0_S1024x128)
    (constant S1024x128 .f32 0x00000000#32)

/-- (‖x‖² + ‖c‖²) − 2·⟨x, c⟩ at every row and lane. -/
def dists (v3 : Vec F S1024x1024 .f32) (v4 : Vec F S128x1024 .f32) : FVec F S1024x128 .f32 :=
  subf
    (addf (broadcastTo S1024x128 (rowSq v3) broadcasts_S1024x1_S1024x128)
      (broadcastTo S1024x128 (cenSq v4) broadcasts_S1x128_S1024x128))
    (mulf (broadcast S1024x128 (Scalar.ofBits .f32 0x40000000#32)) (prods v3 v4))

/-- Where an entry counts as nothing: the lane is the row's label, or is not below 43. -/
def masks (v6 : Vec F S1024x1 .i32) : IVec S1024x128 1 :=
  ori
    (cmpi .eq (iota .tc S1024x128 32 [1] iota_S1024x128_d1_w32)
      (broadcastTo S1024x128 (shapeCast S1024x1 v6 shapeCasts_S1024x1_S1024x1) broadcasts_S1024x1_S1024x128))
    (xori (cmpi .slt (iota .tc S1024x128 32 [1] iota_S1024x128_d1_w32) (broadcast S1024x128 43#32))
      (constantI S1024x128 1 1#1))

/-- The counted entries of the tile. -/
def counted (v3 : Vec F S1024x1024 .f32) (v4 : Vec F S128x1024 .f32) (v6 : Vec F S1024x1 .i32) : FVec F S1024x128 .f32 :=
  select (masks v6) (broadcast S1024x128 (Scalar.ofBits .f32 0x00000000#32))
    (minimumf (broadcast S1024x128 (Scalar.ofBits .f32 0x5368D4A5#32))
      (maximumf (broadcast S1024x128 (Scalar.ofBits .f32 0x2B8CBCCC#32)) (dists v3 v4)))

/-- The body's term for the tile's row sums is the lane sum of the counted entries, as a column. -/
theorem rowSums_eq (v3 : Vec F S1024x1024 .f32) (v4 : Vec F S128x1024 .f32) (v6 : Vec F S1024x1 .i32) :
    k0_pay4 v3 v4 v6
      = shapeCast S1024x1
          (multiReduction .add [1] S1024 (counted v3 v4 v6) 0x00000000#32 reduces_S1024x128_S1024 (.inl rfl) rfl)
          shapeCasts_S1024_S1024x1 := rfl

end Stages

/-! ## The stages at the exact values, read at an index -/

section AtIdeal

/-! The matrix product's operand indices at output index (r, j) and contraction position q: the left operand is read at
    (r, q) and the right, the transposed centres, at (q, j). Each coordinate is stated at its literal axis. -/

theorem lhs_prod_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl
theorem lhs_prod_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q
theorem rhs_prod_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q
theorem rhs_prod_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

variable (v3 : Vec Ideal S1024x1024 .f32) (v4 : Vec Ideal S128x1024 .f32) (v6 : Vec Ideal S1024x1 .i32)

/-- ‖row r‖². -/
theorem rowSq_apply (r : Fin 1024) (z : Fin 1) :
    rowSq (F := Ideal) v3 (ix2 r z) = ∑ k : Fin 1024, v3 (ix2 r k) * v3 (ix2 r k) := by
  unfold rowSq
  refine (shapeCast_a_a1_apply _ shapeCasts_S1024_S1024x1 r z).trans ?_
  exact sum_axis1_apply (mulf v3 v3) _ reduces_S1024x1024_S1024 (.inl rfl) rfl r

/-- ‖padded centre j‖². -/
theorem cenSq_apply (z : Fin 1) (j : Fin 128) :
    cenSq (F := Ideal) v4 (ix2 z j) = ∑ k : Fin 1024, v4 (ix2 j k) * v4 (ix2 j k) := by
  unfold cenSq
  refine (transpose_ix2_apply _ transposes_S128x1_p1_0_S1x128 z j).trans ?_
  refine (shapeCast_a_a1_apply _ shapeCasts_S128_S128x1 j z).trans ?_
  refine (sum_axis1_apply _ _ reduces_S128x1024_S128 (.inl rfl) rfl j).trans ?_
  simp only [shapeCast_self]
  rfl

/-- ⟨row r, padded centre j⟩. -/
theorem prods_apply (r : Fin 1024) (j : Fin 128) :
    prods (F := Ideal) v3 v4 (ix2 r j) = ∑ k : Fin 1024, v3 (ix2 r k) * v4 (ix2 j k) := by
  unfold prods
  refine (Ideal.matmul_constant_zero_apply dot_S1024x1024_S1024x128_S1024x128_1_0_0_1_n_n none _ _ (ix2 r j)).trans ?_
  rw [← Equiv.sum_comp (contrEquiv1 dot_S1024x1024_S1024x128_S1024x128_1_0_0_1_n_n 1024 rfl rfl).symm]
  refine Finset.sum_congr rfl fun k _ => ?_
  have hk := contrEquiv1_symm_val dot_S1024x1024_S1024x128_S1024x128_1_0_0_1_n_n 1024 rfl rfl k
  have el : dot_S1024x1024_S1024x128_S1024x128_1_0_0_1_n_n.lhsIdx (ix2 r j) ((contrEquiv1 dot_S1024x1024_S1024x128_S1024x128_1_0_0_1_n_n 1024 rfl rfl).symm k) = ix2 r k :=
    funext fun a => Fin.ext (by
      match a with
      | ⟨0, _⟩ => exact lhs_prod_0 _ _
      | ⟨1, _⟩ => exact (lhs_prod_1 _ _).trans hk)
  have er : dot_S1024x1024_S1024x128_S1024x128_1_0_0_1_n_n.rhsIdx (ix2 r j) ((contrEquiv1 dot_S1024x1024_S1024x128_S1024x128_1_0_0_1_n_n 1024 rfl rfl).symm k) = ix2 k j :=
    funext fun a => Fin.ext (by
      match a with
      | ⟨0, _⟩ => exact (rhs_prod_0 _ _).trans hk
      | ⟨1, _⟩ => exact rhs_prod_1 _ _)
  rw [el, er]
  refine congrArg (v3 (ix2 r k) * ·) ?_
  refine (transpose_ix2_apply _ transposes_S128x1024_p1_0_S1024x128 k j).trans ?_
  refine (truncf_apply _ bitsLt_bf16_f32 (ix2 j k)).trans ?_
  rw [shapeCast_self]

/-- (‖x_r‖² + ‖c_j‖²) − 2·⟨x_r, c_j⟩. -/
theorem dists_apply (r : Fin 1024) (j : Fin 128) :
    dists (F := Ideal) v3 v4 (ix2 r j)
      = ((∑ k : Fin 1024, v3 (ix2 r k) * v3 (ix2 r k)) + ∑ k : Fin 1024, v4 (ix2 j k) * v4 (ix2 j k))
        - Ideal.ofBits .f32 0x40000000#32 * ∑ k : Fin 1024, v3 (ix2 r k) * v4 (ix2 j k) := by
  unfold dists
  rw [subf_apply, addf_apply, mulf_apply, prods_apply,
    broadcastTo_a1_ab_apply (by decide) (rowSq (F := Ideal) v3) broadcasts_S1024x1_S1024x128 r j 0, rowSq_apply,
    broadcastTo_1b_ab_apply (cenSq (F := Ideal) v4) broadcasts_S1x128_S1024x128 r j, cenSq_apply]
  rfl

/-- The mask at (r, j) is the lane mask of the row's label. -/
theorem masks_apply (r : Fin 1024) (j : Fin 128) (z : Fin 1) :
    masks (F := Ideal) v6 (ix2 r j) = laneMask (v6 (ix2 r z)) j := by
  unfold masks laneMask
  show IntOp.ori (IntOp.cmpi .eq (iota .tc S1024x128 32 [1] iota_S1024x128_d1_w32 (ix2 r j))
      (broadcastTo S1024x128 (shapeCast S1024x1 v6 shapeCasts_S1024x1_S1024x1) broadcasts_S1024x1_S1024x128 (ix2 r j)))
      (IntOp.xori (IntOp.cmpi .slt (iota .tc S1024x128 32 [1] iota_S1024x128_d1_w32 (ix2 r j)) 43#32) 1#1) = _
  rw [iota_single_apply, broadcastTo_a1_ab_apply (by decide) _ broadcasts_S1024x1_S1024x128 r j z, shapeCast_self]

/-- The counted entry at (r, j). -/
theorem counted_apply (r : Fin 1024) (j : Fin 128) (z : Fin 1) :
    counted (F := Ideal) v3 v4 v6 (ix2 r j)
      = kept (laneMask (v6 (ix2 r z)) j)
          (clipDist (∑ k : Fin 1024, v3 (ix2 r k) * v3 (ix2 r k)) (∑ k : Fin 1024, v4 (ix2 j k) * v4 (ix2 j k))
            (∑ k : Fin 1024, v3 (ix2 r k) * v4 (ix2 j k))) := by
  unfold counted kept clipDist
  rw [select_apply, masks_apply v6 r j z, minimumf_apply, maximumf_apply, dists_apply]
  rfl

/-- The tile's row sum at row r: the sum over the 128 lanes of the counted entries. -/
theorem rowSums_apply (r : Fin 1024) (z : Fin 1) :
    k0_pay4 (F := Ideal) v3 v4 v6 (ix2 r z)
      = ∑ j : Fin 128, kept (laneMask (v6 (ix2 r z)) j)
          (clipDist (∑ k : Fin 1024, v3 (ix2 r k) * v3 (ix2 r k)) (∑ k : Fin 1024, v4 (ix2 j k) * v4 (ix2 j k))
            (∑ k : Fin 1024, v3 (ix2 r k) * v4 (ix2 j k))) := by
  rw [rowSums_eq]
  refine (shapeCast_a_a1_apply _ shapeCasts_S1024_S1024x1 r z).trans ?_
  refine (sum_axis1_apply _ _ reduces_S1024x128_S1024 (.inl rfl) rfl r).trans ?_
  exact Finset.sum_congr rfl fun j _ => counted_apply v3 v4 v6 r j z

end AtIdeal

end Cert.KernelIdeal.Tile

end
-- ==== Proof.RunningTotal.lean ====
/-
  The running total across the grid.

  After point n the one-entry scratch holds the sum of the tile sums of points 0 … n: the first point starts it from
  zero, every later point adds its own tile sum to what the point before left. The last point also writes the total,
  divided by the number of counted entries, to the output. A tile sum is the sum over the tile's 1024 rows of the row
  sums of the counted entries.
-/
import proofs.«173890_j14877766713743_1_alg».proof.Proof.KernelCases
import proofs.«173890_j14877766713743_1_alg».proof.Proof.TileTerms

noncomputable section

open scoped BigOperators

namespace Cert.KernelIdeal.Total

open Cert.KernelIdeal Cert.KernelIdeal.Gen Cert.KernelIdeal.Cases Cert.KernelIdeal.Tile ConProximity Keepdims
open Idealize.ShloMosaic Idealize.ShloMosaic.ValueIdx Idealize.ShloMosaic.TcCoe Idealize.SL.Sem

/-! ## The three small payloads at the exact values -/

/-- The reset stores zero. -/
theorem reset_apply (y : S1x1.Idx) : k0_pay3 (F := Ideal) y = 0 := by
  unfold k0_pay3
  rw [shapeCast_self]
  exact Ideal.ofBits_zero_f32

/-- The update adds the sum of the tile's 1024 row sums to what the scratch held. -/
theorem update_apply (v39 : FVec Ideal S1024x1 .f32) (v42 : Vec Ideal S1x1 .f32) (y : S1x1.Idx) :
    k0_pay1 (F := Ideal) v39 v42 y = v42 y + ∑ r : Fin 1024, v39 (ix2 r 0) := by
  obtain ⟨p, q, rfl⟩ : ∃ (p : Fin 1) (q : Fin 1), y = ix2 p q := ⟨y 0, y 1, eq_ix2 y⟩
  unfold k0_pay1
  rw [shapeCast_self, addf_apply]
  refine congrArg (v42 (ix2 p q) + ·) ?_
  refine (shapeCast_a_a1_apply _ shapeCasts_S1_S1x1 p q).trans ?_
  refine (sum_axis0_apply v39 _ reduces_S1024x1_S1 (.inl rfl) rfl p).trans ?_
  obtain rfl : p = 0 := Subsingleton.elim _ _
  rfl

/-- The final store divides the total by the number of counted entries. -/
theorem mean_apply (v50 : Vec Ideal S1x1 .f32) (y : S1x1.Idx) :
    k0_pay2 (F := Ideal) v50 y = Ideal.div (v50 y) (Ideal.ofBits .f32 0x49A80000#32) := by
  unfold k0_pay2
  rfl

/-! ## The blocks a point works on, at their literal types -/

variable (m : (ℓ : Loc nD τ sig) → Buf (Elt Ideal) ℓ)

/-- The tile of `x` at point t. -/
abbrev xb (c : Dev nD) (t : Fin cfg0.N) : Vec Ideal S1024x1024 .f32 := iblk m c 0 t
/-- The padded centres at point t (the same block at every point). -/
abbrev cb (c : Dev nD) (t : Fin cfg0.N) : Vec Ideal S128x1024 .f32 := iblk m c 1 t
/-- The tile of labels at point t. -/
abbrev lb (c : Dev nD) (t : Fin cfg0.N) : Vec Ideal S1024x1 .i32 := iblk m c 2 t

/-- The tile sum of point t. -/
def tileSum (c : Dev nD) (t : Fin cfg0.N) : EReal :=
  ∑ r : Fin 1024, k0_pay4 (F := Ideal) (xb m c t) (cb m c t) (lb m c t) (ix2 r 0)

/-! ## What the scratch holds after each point -/

/-- After the first point: zero plus the first tile sum. -/
theorem scratch_first (c : Dev nD) (hn : 0 < cfg0.N) :
    (outsAt0 m c 0 hn).2 = k0_pay1 (k0_pay4 (xb m c ⟨0, hn⟩) (cb m c ⟨0, hn⟩) (lb m c ⟨0, hn⟩)) (k0_pay3 (F := Ideal)) := by
  have h1 : ¬(⟨0, hn⟩ : Fin cfg0.N).val % 32 = 31 := by
    show ¬(0 % 32 = 31)
    decide
  rw [outsAt0_A m c ⟨0, hn⟩ rfl h1]
  dsimp only
  exact (fun t : Fin cfg0.N => fun hc0 hc1 =>
    sout_A (F := Ideal) c (grid0.coords t) (ms0_0 t) (hs0_0 t) (ms0_1 t) (hs0_1 t) (ms0_2 t) (hs0_2 t) (ms0_3 t) (hs0_3 t) scM0_0 (Memref.isWhole_whole _) hc0 hc1 (xb m c t) (cb m c t) (lb m c t)) ⟨0, hn⟩ _ _

/-- After a later point: what the point before left plus this point's tile sum. -/
theorem scratch_next (c : Dev nD) (n : ℕ) (hn : n + 1 < cfg0.N) :
    (outsAt0 m c (n + 1) hn).2
      = k0_pay1 (k0_pay4 (xb m c ⟨n + 1, hn⟩) (cb m c ⟨n + 1, hn⟩) (lb m c ⟨n + 1, hn⟩))
          (outsAt0 m c n (Nat.lt_of_succ_lt hn)).2 := by
  have h0 : ¬(⟨n + 1, hn⟩ : Fin cfg0.N).val % 32 = 0 := by
    have hN : n + 1 < 32 := lt_of_lt_of_eq hn N_0
    dsimp only; omega
  by_cases h1 : (⟨n + 1, hn⟩ : Fin cfg0.N).val % 32 = 31
  · rw [outsAt0_C m c ⟨n + 1, hn⟩ h0 h1]
    dsimp only
    exact (fun t : Fin cfg0.N => fun hc0 hc1 xs =>
      sout_C (F := Ideal) c (grid0.coords t) (ms0_0 t) (hs0_0 t) (ms0_1 t) (hs0_1 t) (ms0_2 t) (hs0_2 t) (ms0_3 t) (hs0_3 t) scM0_0 (Memref.isWhole_whole _) hc0 hc1 (xb m c t) (cb m c t) (lb m c t) xs) ⟨n + 1, hn⟩ _ _ _
  · rw [outsAt0_B m c ⟨n + 1, hn⟩ h0 h1]
    dsimp only
    exact (fun t : Fin cfg0.N => fun hc0 hc1 xs =>
      sout_B (F := Ideal) c (grid0.coords t) (ms0_0 t) (hs0_0 t) (ms0_1 t) (hs0_1 t) (ms0_2 t) (hs0_2 t) (ms0_3 t) (hs0_3 t) scM0_0 (Memref.isWhole_whole _) hc0 hc1 (xb m c t) (cb m c t) (lb m c t) xs) ⟨n + 1, hn⟩ _ _ _

/-- The tile sum of point t, and nothing beyond the grid. -/
def tileSumAt (c : Dev nD) (t : ℕ) : EReal := if h : t < cfg0.N then tileSum m c ⟨t, h⟩ else 0

/-- After point n the scratch holds the sum of the tile sums of points 0 … n. -/
theorem scratch_eq (c : Dev nD) : ∀ (n : ℕ) (hn : n < cfg0.N) (y : S1x1.Idx),
    (outsAt0 m c n hn).2 y = ∑ t ∈ Finset.range (n + 1), tileSumAt m c t
  | 0, hn, y => by
    rw [scratch_first, update_apply, reset_apply, zero_add, Finset.sum_range_one]
    unfold tileSumAt
    rw [dif_pos hn]
    rfl
  | n + 1, hn, y => by
    rw [scratch_next, update_apply, scratch_eq c n (Nat.lt_of_succ_lt hn) y, Finset.sum_range_succ _ (n + 1)]
    refine congrArg (_ + ·) ?_
    unfold tileSumAt
    rw [dif_pos hn]
    rfl

/-- At the last point the output is left holding the scratch's total divided by the number of counted entries. -/
theorem out_last (c : Dev nD) (t : Fin cfg0.N) (h31 : t.val % 32 = 31) :
    (outsAt0 m c t.val t.isLt).1 = k0_pay2 (outsAt0 m c t.val t.isLt).2 := by
  have h0 : ¬t.val % 32 = 0 := by omega
  rw [outsAt0_C m c t h0 h31]
  dsimp only
  exact ((fun hc0 hc1 xs =>
      out_C (F := Ideal) c (grid0.coords t) (ms0_0 t) (hs0_0 t) (ms0_1 t) (hs0_1 t) (ms0_2 t) (hs0_2 t) (ms0_3 t) (hs0_3 t) scM0_0 (Memref.isWhole_whole _) hc0 hc1 (xb m c t) (cb m c t) (lb m c t) xs) _ _ _).trans
    (congrArg k0_pay2 ((fun hc0 hc1 xs =>
      sout_C (F := Ideal) c (grid0.coords t) (ms0_0 t) (hs0_0 t) (ms0_1 t) (hs0_1 t) (ms0_2 t) (hs0_2 t) (ms0_3 t) (hs0_3 t) scM0_0 (Memref.isWhole_whole _) hc0 hc1 (xb m c t) (cb m c t) (lb m c t) xs) _ _ _).symm)

end Cert.KernelIdeal.Total

end
-- ==== Proof.KernelBlocks.lean ====
/-
  What the kernel's three input windows hold at a grid point.

  The grid walks `x` and the labels in 32 blocks of 1024 rows, so at point t the first window holds rows
  1024·t … 1024·t + 1023 of `x` and the third the same rows of the label column; the second window holds all 128 rows of
  the padded centres at every point. The padded centres are the 43 centres followed by 85 rows of the padding value, and
  the label column is the label vector viewed as a 32768 × 1 matrix: these two arrays are what the program's lines before
  the kernel leave.
-/
import proofs.«173890_j14877766713743_1_alg».proof.Proof.Gen.KernelIdeal.Frame
import Idealize.ShloMosaic.Lib.Pipeline.Value
import Idealize.ShloMosaic.Lib.ValueIdx
import Idealize.ShloMosaic.Lib.KernelVsHost
import Idealize.ShloMosaic.Lib.StableHlo.Run
import proofs.«173890_j14877766713743_1_alg».proof.Proof.LibKeepdims

noncomputable section

namespace Cert.KernelIdeal.Blocks

open Cert.KernelIdeal Cert.KernelIdeal.Gen
open Idealize.ShloMosaic Idealize.ShloMosaic.ValueIdx Idealize.ShloMosaic.TcCoe Idealize.SL.Sem

variable {F : FTy → Type} [FloatOps F]
variable (m : (ℓ : Loc nD τ sig) → Buf (Elt F) ℓ)

/-- Where the three input windows' blocks sit: windows 0 and 2 move down one block a point, window 1 stays. -/
theorem index_facts : ∀ t : Fin cfg0.N,
    win0_0.index t 0 = t.val ∧ win0_0.index t 1 = 0 ∧ win0_1.index t 0 = 0 ∧ win0_1.index t 1 = 0
      ∧ win0_2.index t 0 = t.val ∧ win0_2.index t 1 = 0 :=
  (by decide +kernel : ∀ t : Fin grid0.N, _)

/-- The tile of `x` at point t: entry (r, k) is `x` at row 1024·t + r. -/
theorem xblock_apply (c : Dev nD) (t : Fin cfg0.N) (r : Fin 1024) (k : Fin 1024) (hr : 1024 * t.val + r.val < 32768) :
    (iblk m c 0 t : Vec F S1024x1024 .f32) (ix2 r k)
      = m ((c : Thread nD τ).loc main_arg0) (ix2 ⟨1024 * t.val + r.val, hr⟩ k) := by
  unfold iblk
  rw [View.read_apply]
  show V m c main_arg0 (((cfg0.win 0).blk t).view.emb (ix2 r k)) = _
  rw [V_main_arg0]
  refine congrArg (m ((c : Thread nD τ).loc main_arg0)) (funext fun a => Fin.ext ?_)
  have hi := index_facts t
  match a with
  | ⟨0, _⟩ =>
    show win0_0.index t 0 * 1024 + 1 * r.val = 1024 * t.val + r.val
    rw [hi.1]; omega
  | ⟨1, _⟩ =>
    show win0_0.index t 1 * 1024 + 1 * k.val = k.val
    rw [hi.2.1]; omega

/-- The padded centres' block is the whole padded array at every point. -/
theorem cblock_apply (c : Dev nD) (t : Fin cfg0.N) (j : Fin 128) (k : Fin 1024) :
    (iblk m c 1 t : Vec F S128x1024 .f32) (ix2 j k) = (V m c main_v0 : Vec F S128x1024 .f32) (ix2 j k) := by
  unfold iblk
  rw [View.read_apply]
  show V m c main_v0 (((cfg0.win 1).blk t).view.emb (ix2 j k)) = _
  refine congrArg (V m c main_v0) (funext fun a => Fin.ext ?_)
  have hi := index_facts t
  match a with
  | ⟨0, _⟩ =>
    show win0_1.index t 0 * 128 + 1 * j.val = j.val
    rw [hi.2.2.1]; omega
  | ⟨1, _⟩ =>
    show win0_1.index t 1 * 1024 + 1 * k.val = k.val
    rw [hi.2.2.2.1]; omega

/-- The tile of the label column at point t: entry (r, 0) is the column at row 1024·t + r. -/
theorem lblock_apply (c : Dev nD) (t : Fin cfg0.N) (r : Fin 1024) (z : Fin 1) (hr : 1024 * t.val + r.val < 32768) :
    (iblk m c 2 t : Vec F S1024x1 .i32) (ix2 r z)
      = (V m c main_v1 : Vec F S32768x1 .i32) (ix2 ⟨1024 * t.val + r.val, hr⟩ z) := by
  unfold iblk
  rw [View.read_apply]
  show V m c main_v1 (((cfg0.win 2).blk t).view.emb (ix2 r z)) = _
  refine congrArg (V m c main_v1) (funext fun a => Fin.ext ?_)
  have hi := index_facts t
  match a with
  | ⟨0, _⟩ =>
    show win0_2.index t 0 * 1024 + 1 * r.val = 1024 * t.val + r.val
    rw [hi.2.2.2.2.1]; omega
  | ⟨1, _⟩ =>
    show win0_2.index t 1 * 1 + 1 * z.val = z.val
    rw [hi.2.2.2.2.2]; omega

/-- The host lines before the region leave, in the second window's array, the centres padded with 85 more rows. -/
theorem V_centres (c : Dev nD) :
    (V m c main_v0 : Vec F S128x1024 .f32)
      = pad S128x1024 ![0, 0] ![85, 0] ![0, 0] (m ((c : Thread nD τ).loc main_arg1))
          (sitofp (F := F) .f32 (constantI S_ 32 0#32)) pads_S43x1024_S128x1024_0850_000 h_S_ := by
  dsimp only [V, V0]
  simp only [hostOps0, hostOps0_1, hostOps0_2, List.flatten_cons, List.flatten_nil, List.append_nil, List.cons_append,
    List.nil_append]
  after_results
  rfl

/-- … and, in the third window's array, the labels as a column. -/
theorem V_labels (c : Dev nD) :
    (V m c main_v1 : Vec F S32768x1 .i32)
      = shapeCast S32768x1 (m ((c : Thread nD τ).loc main_arg2)) shapeCasts_S32768_S32768x1 := by
  dsimp only [V, V0]
  simp only [hostOps0, hostOps0_1, hostOps0_2, List.flatten_cons, List.flatten_nil, List.append_nil, List.cons_append,
    List.nil_append]
  after_results
  rfl

/-- A row of the padded centres below 43 is that row of the centres. -/
theorem centres_apply (c : Dev nD) (j : Fin 43) (k : Fin 1024) (hj : j.val < 128) :
    (V m c main_v0 : Vec F S128x1024 .f32) (ix2 ⟨j.val, hj⟩ k) = m ((c : Thread nD τ).loc main_arg1) (ix2 j k) := by
  rw [V_centres]
  exact pad_apply_of_inside ![0, 0] ![85, 0] ![0, 0] (m ((c : Thread nD τ).loc main_arg1)) _
    pads_S43x1024_S128x1024_0850_000 h_S_ (ix2 ⟨j.val, hj⟩ k) (ix2 j k) (fun a => match a with
      | ⟨0, _⟩ => by show j.val = 0 + j.val * (0 + 1); omega
      | ⟨1, _⟩ => by show k.val = 0 + k.val * (0 + 1); omega)

/-- An entry of the label column is the label of its row. -/
theorem labels_apply (c : Dev nD) (i : Fin 32768) (z : Fin 1) :
    (V m c main_v1 : Vec F S32768x1 .i32) (ix2 i z) = m ((c : Thread nD τ).loc main_arg2) (ix1 i) := by
  rw [V_labels]
  exact Keepdims.shapeCast_a_a1_apply _ shapeCasts_S32768_S32768x1 i z

end Cert.KernelIdeal.Blocks

end
-- ==== Proof.KernelTotal.lean ====
/-
  The kernel's total is the total.

  The tile sum of point t is the sum, over the tile's rows r and the 128 lanes j, of the counted entry of row 1024·t + r
  against padded centre j. On the first 43 lanes the padded centre is centre j and the lane mask is the own-class test, so
  the entry is the counted entry (1024·t + r, j) of the whole quantity; on the other 85 lanes the mask is set and the
  entry is zero, whatever the padding rows hold. Summed over the 32 points this is the total, by the law of sums; divided
  by the number of counted entries it is the quantity itself.
-/
import proofs.«173890_j14877766713743_1_alg».proof.Proof.RunningTotal
import proofs.«173890_j14877766713743_1_alg».proof.Proof.KernelBlocks

noncomputable section

open scoped BigOperators

namespace Cert.KernelIdeal.Whole

open Cert.KernelIdeal Cert.KernelIdeal.Gen Cert.KernelIdeal.Total Cert.KernelIdeal.Tile Cert.KernelIdeal.Blocks ConProximity
open Idealize.ShloMosaic Idealize.ShloMosaic.ValueIdx Idealize.ShloMosaic.TcCoe Idealize.SL.Sem

variable (m : (ℓ : Loc nD τ sig) → Buf (Elt Ideal) ℓ)

/-- The three argument arrays on core c. -/
abbrev argX (c : Dev nD) : (⟨2, ![32768, 1024]⟩ : Shape).Idx → EReal := m ((c : Thread nD τ).loc main_arg0)
abbrev argC (c : Dev nD) : (⟨2, ![43, 1024]⟩ : Shape).Idx → EReal := m ((c : Thread nD τ).loc main_arg1)
abbrev argL (c : Dev nD) : (⟨1, ![32768]⟩ : Shape).Idx → BitVec 32 := m ((c : Thread nD τ).loc main_arg2)

/-- Tile number t as a grid point. -/
def pt (t : Fin 32) : Fin cfg0.N := ⟨t.val, lt_of_lt_of_eq t.isLt N_0.symm⟩

/-- The kernel's counted entry at tile t, row r, lane j. -/
def laneTerm (c : Dev nD) (t : Fin 32) (r : Fin 1024) (j : Fin 128) : EReal :=
  kept (laneMask (lb m c (pt t) (ix2 r 0)) j)
    (clipDist (∑ k : Fin 1024, xb m c (pt t) (ix2 r k) * xb m c (pt t) (ix2 r k))
      (∑ k : Fin 1024, cb m c (pt t) (ix2 j k) * cb m c (pt t) (ix2 j k))
      (∑ k : Fin 1024, xb m c (pt t) (ix2 r k) * cb m c (pt t) (ix2 j k)))

/-- On a class lane it is the counted entry of the whole quantity. -/
theorem laneTerm_class (c : Dev nD) (t : Fin 32) (r : Fin 1024) (j : Fin 43) :
    laneTerm m c t r ⟨j.val, by have := j.isLt; omega⟩ = term (argX m c) (argC m c) (argL m c) (rowOf t r) j := by
  have hx : ∀ k : Fin 1024, xb m c (pt t) (ix2 r k) = argX m c (ix2 (rowOf t r) k) := fun k =>
    xblock_apply m c (pt t) r k (rowOf t r).isLt
  have hc : ∀ k : Fin 1024, cb m c (pt t) (ix2 ⟨j.val, by have := j.isLt; omega⟩ k) = argC m c (ix2 j k) := fun k =>
    (cblock_apply m c (pt t) ⟨j.val, by have := j.isLt; omega⟩ k).trans (centres_apply m c j k _)
  have hl : lb m c (pt t) (ix2 r 0) = argL m c (ix1 (rowOf t r)) :=
    (lblock_apply m c (pt t) r 0 (rowOf t r).isLt).trans (labels_apply m c (rowOf t r) 0)
  unfold laneTerm term own sqX sqC dotXC
  rw [laneMask_lt _ _ j.isLt, hl]
  simp only [hx, hc]

/-- On the other lanes it is zero. -/
theorem laneTerm_pad (c : Dev nD) (t : Fin 32) (r : Fin 1024) (j : Fin 128) (h : 43 ≤ j.val) : laneTerm m c t r j = 0 := by
  unfold laneTerm
  rw [laneMask_ge _ j h]
  exact kept_one _

/-- The tile sums of the 32 points add up to the total. -/
theorem tiles_total (c : Dev nD) :
    ∑ t ∈ Finset.range 32, tileSumAt m c t = total (argX m c) (argC m c) (argL m c) := by
  rw [Finset.sum_range]
  have e : ∀ t : Fin 32, tileSumAt m c t.val = ∑ r : Fin 1024, ∑ j : Fin 128, laneTerm m c t r j := fun t => by
    unfold tileSumAt
    rw [dif_pos (show t.val < cfg0.N from (pt t).isLt)]
    unfold tileSum
    exact Finset.sum_congr rfl fun r _ => rowSums_apply (xb m c (pt t)) (cb m c (pt t)) (lb m c (pt t)) r 0
  rw [Finset.sum_congr rfl fun t _ => e t]
  exact total_eq_tiles (argX m c) (argC m c) (argL m c) (laneTerm m c) (laneTerm_class m c) (laneTerm_pad m c)

/-- What the last point leaves in the output: the quantity itself. -/
theorem out_value (c : Dev nD) (t : Fin cfg0.N) (h31 : t.val = 31) (y : S1x1.Idx) :
    (outsAt0 m c t.val t.isLt).1 y = loss (argX m c) (argC m c) (argL m c) := by
  rw [out_last m c t (by omega), mean_apply, scratch_eq m c t.val t.isLt y]
  unfold loss
  refine congrArg (fun s : EReal => Ideal.div s (Ideal.ofBits .f32 0x49A80000#32)) ?_
  rw [h31]
  exact tiles_total m c

end Cert.KernelIdeal.Whole

end
-- ==== Proof.KernelRun.lean ====
/-
  From the last grid point to the program's result.

  The output window's one block is the whole 1 × 1 output array, and it is written back once, after the last of the 32
  points. So whatever value the last point leaves in the output's buffer is what the array holds when the kernel is done,
  and the line after the kernel, which views the 1 × 1 array as a scalar, makes it the program's result. The three
  arguments are read only: they end as they began.
-/
import proofs.«173890_j14877766713743_1_alg».proof.Proof.Gen.KernelIdeal.Frame
import Idealize.ShloMosaic.Lib.Pipeline.Value
import Idealize.ShloMosaic.Lib.StableHlo.Run
import Idealize.ShloMosaic.Lib.Tactic

noncomputable section

namespace Cert.KernelIdeal.Last

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The last grid point. -/
def tLast : Fin cfg0.N := ⟨31, by rw [show cfg0.N = 32 from N_0]; decide⟩

/-- The one write-back, at the last point, writes the value the last point left: read through the one block of the
    1 × 1 output array, a constant array is that constant. -/
theorem flushed_eq (c : Dev nD) (L : F .f32)
    (hL : ∀ t : Fin cfg0.N, t.val = 31 → ∀ y : S1x1.Idx, (outsAt0 m c t.val t.isLt).1 y = L)
    (t : Fin cfg0.N) (hf : (cfg0.win 3).flush t = true) :
    (dats m 0 c).flushed 3 t
      = ((cfg0.win 3).blk t).view.read (Elt F) ((fun _ => L) : Buf (Elt F) ((c : Thread nD τ).loc main_v2)) := by
  have hN : cfg0.N = 32 := N_0
  have h31 : t.val = 31 := by have := (flush0_3 t).mp hf; have := t.isLt; omega
  show (cfg0.win 3).cut (grid0.coords t) ((dats m 0 c).after 3 t) = _
  rw [after0_3]
  funext y
  rw [View.read_apply]
  exact hL t h31 _

/-- So the output array ends holding that value at its one index. -/
theorem final_out (c : Dev nD) (L : F .f32)
    (hL : ∀ t : Fin cfg0.N, t.val = 31 → ∀ y : S1x1.Idx, (outsAt0 m c t.val t.isLt).1 y = L) :
    (dats m 0 c).arrAt 3 cfg0.N = ((fun _ => L) : Buf (Elt F) ((c : Thread nD τ).loc main_v2)) :=
  (dats m 0 c).arrAt_eq_of_cover 3 _ (flushed_eq m c L hL) fun i =>
    ⟨tLast, (flush0_3 tLast).mpr rfl, by
      show i ∈ ((View.whole main_v2).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat)
          ∧ (i 0 : Nat) < win0_3.index tLast 0 * win0_3.size 0 + win0_3.xsize (grid0.coords tLast) 0
        rw [show win0_3.index tLast 0 * win0_3.size 0 = 0 from by decide +kernel,
          show win0_3.xsize (grid0.coords tLast) 0 = 1 from by decide +kernel]
        omega
      | ⟨1, _⟩ =>
        show win0_3.index tLast 1 * win0_3.size 1 ≤ (i 1 : Nat)
          ∧ (i 1 : Nat) < win0_3.index tLast 1 * win0_3.size 1 + win0_3.xsize (grid0.coords tLast) 1
        rw [show win0_3.index tLast 1 * win0_3.size 1 = 0 from by decide +kernel,
          show win0_3.xsize (grid0.coords tLast) 1 = 1 from by decide +kernel]
        omega⟩

/-- The line after the kernel views the 1 × 1 array as a scalar: the program's result is that value. -/
theorem tail_eq (c : Dev nD) (L : F .f32)
    (hL : ∀ t : Fin cfg0.N, t.val = 31 → ∀ y : S1x1.Idx, (outsAt0 m c t.val t.isLt).1 y = L) :
    Pipeline.afterTail₀ cfgs (dats m) 0 (V0 m) [hostOps1] c main_v3
      = ((fun _ => L) : Buf (Elt F) ((c : Thread nD τ).loc main_v3)) := by
  unfold Pipeline.afterTail₀
  show StableHlo.after hostOps1 _ (Proc.devRef .tc main_v3) = _
  after_results
  have e : Pipeline.withArrays (cfgs 0).spec c (V0 m c) (fun w => (dats m 0 c).arrAt w (cfgs 0).N)
      (Proc.devRef .tc main_v2) = ((fun _ => L) : Buf (Elt F) ((c : Thread nD τ).loc main_v2)) :=
    (Pipeline.withArrays_arr spec0 launch0.win.arr_inj c _ _ 3).trans (final_out m c L hL)
  rw [e]
  rfl

/-- THE RUN, READ. Every weakly fair execution of the program ends with its result at the value the last point left
    and its three arguments as they were. -/
theorem run (L : Dev nD → F .f32)
    (hL : ∀ (c : Dev nD) (t : Fin cfg0.N), t.val = 31 → ∀ y : S1x1.Idx, (outsAt0 m c t.val t.isLt).1 y = L c) :
    θ_run defs (onTc (τ := τ) (main (F := F))) ⟨m, fun _ => 0, ρ⟩ (fun r => ∀ c : Dev nD,
      r.2.mem ((c.tc : Thread nD τ).loc main_v3) = ((fun _ => L c) : Buf (Elt F) ((c : Thread nD τ).loc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v3 (Pipeline.mem_restRefs_of main_v3 (by decide) (by decide))).trans (tail_eq m c (L c) (hL c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Last

end
-- ==== Proof.lean ====
/-
  The kernel and its reference compute the same mean clipped distance.

  For rows x_i of `x` (i < 32768), class centres c_j of `centers` (j < 43) and labels l_i, both programs return
      ( Σ_i Σ_{j ≠ l_i} clip( (‖x_i‖² + ‖c_j‖²) − 2·⟨x_i, c_j⟩ ) ) / (32768 · 42)
  over the extended reals, with the same clipping bounds and the same divisor.

  The reference forms the 32768 × 43 table of clipped distances, puts zero where j = l_i, sums the table and divides.
  The kernel walks the rows in 32 tiles of 1024; in each tile it pads the classes to 128 lanes, puts zero where the lane
  is the label or is not a class, sums lanes then rows, and adds the tile's sum to a running total kept across the
  tiles; after the last tile it divides. Sums of extended reals may be regrouped freely, and a lane that is not a class
  contributes zero whatever the padding holds, so the two results are equal at every input; the precondition is not
  used for this. Narrowing the product's operands to 16 bits is the identity at the exact values.

  The frames of the two kernel programs are the generated ones; the reference's frame is its generated run with the
  result dropped; the idealization rewrote nothing, so `preserves` asks nothing.
-/
import proofs.«173890_j14877766713743_1_alg».proof.Defs
import proofs.«173890_j14877766713743_1_alg».proof.Proof.Gen.Kernel
import proofs.«173890_j14877766713743_1_alg».proof.Proof.Gen.Kernel.Skeleton
import proofs.«173890_j14877766713743_1_alg».proof.Proof.Gen.Kernel.Launch
import proofs.«173890_j14877766713743_1_alg».proof.Proof.Gen.Kernel.Points
import proofs.«173890_j14877766713743_1_alg».proof.Proof.Gen.Kernel.Frame
import proofs.«173890_j14877766713743_1_alg».proof.Proof.Gen.KernelIdeal
import proofs.«173890_j14877766713743_1_alg».proof.Proof.Gen.KernelIdeal.Skeleton
import proofs.«173890_j14877766713743_1_alg».proof.Proof.Gen.KernelIdeal.Launch
import proofs.«173890_j14877766713743_1_alg».proof.Proof.Gen.KernelIdeal.Points
import proofs.«173890_j14877766713743_1_alg».proof.Proof.Gen.KernelIdeal.Frame
import proofs.«173890_j14877766713743_1_alg».proof.Proof.Gen.ReferenceIdeal
import proofs.«173890_j14877766713743_1_alg».proof.Proof.Gen.ReferenceIdeal.Run
import proofs.«173890_j14877766713743_1_alg».proof.Proof.Gen.ReferenceIdeal.Read
import proofs.«173890_j14877766713743_1_alg».proof.Proof.Gen.Pre_finite_inputs
import proofs.«173890_j14877766713743_1_alg».proof.Proof.RefSide
import proofs.«173890_j14877766713743_1_alg».proof.Proof.KernelTotal
import proofs.«173890_j14877766713743_1_alg».proof.Proof.KernelRun
import Idealize.ShloMosaic.Adequacy
import Idealize.ShloMosaic.Init

noncomputable section

namespace Cert.Proof

open Idealize.ShloMosaic Idealize.SL.Sem ConProximity

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the mean clipped distance of the same arguments. -/
theorem algebraic : Cert.algebraic_KernelIdeal_ReferenceIdeal := by
  intro m ρ m' ρ' _ hagree
  refine ⟨fun c => fun _ =>
    loss (Cert.KernelIdeal.Whole.argX m c) (Cert.KernelIdeal.Whole.argC m c) (Cert.KernelIdeal.Whole.argL m c), ?_, ?_⟩
  · exact Cert.KernelIdeal.Last.run m ρ
      (fun c => loss (Cert.KernelIdeal.Whole.argX m c) (Cert.KernelIdeal.Whole.argC m c) (Cert.KernelIdeal.Whole.argL m c))
      (fun c t h31 y => Cert.KernelIdeal.Whole.out_value m c t h31 y)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefSide.result_eq, (hagree c).1, (hagree c).2.1,
      (hagree c).2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
